-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x768 : Shape := ⟨2, ![16384, 768]⟩
abbrev S1024x768 : Shape := ⟨2, ![1024, 768]⟩
abbrev S1024 : Shape := ⟨1, ![1024]⟩
abbrev S1x2048 : Shape := ⟨2, ![1, 2048]⟩
abbrev S1 : Shape := ⟨1, ![1]⟩
abbrev S_ : Shape := ⟨0, ![]⟩

class Facts : Prop where
  bcast_S_S16384x768 : S_.BroadcastsInDim S16384x768 (![] : Fin 0 → Fin S16384x768.rank)
  reducesTo_S16384x768_S_d0_1 : S16384x768.ReducesTo [0, 1] S_
  h_S_ : 0 < S_.numel
  bcast_S_S1024x768 : S_.BroadcastsInDim S1024x768 (![] : Fin 0 → Fin S1024x768.rank)
  reducesTo_S1024x768_S_d0_1 : S1024x768.ReducesTo [0, 1] S_
  bcast_S_S1024 : S_.BroadcastsInDim S1024 (![] : Fin 0 → Fin S1024.rank)
  reducesTo_S1024_S_d0 : S1024.ReducesTo [0] S_
  bcast_S_S1x2048 : S_.BroadcastsInDim S1x2048 (![] : Fin 0 → Fin S1x2048.rank)
  reducesTo_S1x2048_S_d0_1 : S1x2048.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1x2048 .f32) (main_arg5 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1x2048 .f32 := Host.absf main_arg4
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S16384x768 .f32) (main_arg1 : FVec F S16384x768 .f32) (main_arg2 : FVec F S1024x768 .f32) (main_arg3 : FVec F S1024 .f32) (main_arg4 : FVec F S1x2048 .f32) (main_arg5 : FVec F S1 .f32) : IVec S_ 1 :=
  let main_v0 : FVec F S16384x768 .f32 := Host.absf main_arg0
  let main_cst : FVec F S_ .f32 := constant S_ .f32 0x7F800000#32
  let main_v1 : FVec F S16384x768 .f32 := broadcastInDim S16384x768 ![] bcast_S_S16384x768 main_cst
  let main_v2 : IVec S16384x768 1 := cmpf .olt main_v0 main_v1
  let main_c : IVec S_ 1 := constantI S_ 1 1#1
  let main_v3 : IVec S_ 1 := (fun x v => Host.reduce IntOp.andi x v reducesTo_S16384x768_S_d0_1 h_S_) main_v2 main_c
  let main_v4 : FVec F S16384x768 .f32 := Host.absf main_arg1
  let main_cst_0 : FVec F S_ .f32 := constant S_ .f32 0x7F800000#32
  let main_v5 : FVec F S16384x768 .f32 := broadcastInDim S16384x768 ![] bcast_S_S16384x768 main_cst_0
  let main_v6 : IVec S16384x768 1 := cmpf .olt main_v4 main_v5
  let main_c_1 : IVec S_ 1 := constantI S_ 1 1#1
  let main_v7 : IVec S_ 1 := (fun x v => Host.reduce IntOp.andi x v reducesTo_S16384x768_S_d0_1 h_S_) main_v6 main_c_1
  let main_v8 : IVec S_ 1 := andi main_v3 main_v7
  let main_v9 : FVec F S1024x768 .f32 := Host.absf main_arg2
  let main_cst_2 : FVec F S_ .f32 := constant S_ .f32 0x7F800000#32
  let main_v10 : FVec F S1024x768 .f32 := broadcastInDim S1024x768 ![] bcast_S_S1024x768 main_cst_2
  let main_v11 : IVec S1024x768 1 := cmpf .olt main_v9 main_v10
  let main_c_3 : IVec S_ 1 := constantI S_ 1 1#1
  let main_v12 : IVec S_ 1 := (fun x v => Host.reduce IntOp.andi x v reducesTo_S1024x768_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S16384x768 : Shape := ⟨2, ![16384, 768]⟩
abbrev S1024x768 : Shape := ⟨2, ![1024, 768]⟩
abbrev S1024 : Shape := ⟨1, ![1024]⟩
abbrev S1x2048 : Shape := ⟨2, ![1, 2048]⟩
abbrev S1 : Shape := ⟨1, ![1]⟩
abbrev S768x1024 : Shape := ⟨2, ![768, 1024]⟩
abbrev S1x1024 : Shape := ⟨2, ![1, 1024]⟩
abbrev S2048x1 : Shape := ⟨2, ![2048, 1]⟩
abbrev S1x1 : Shape := ⟨2, ![1, 1]⟩
abbrev S16384x1 : Shape := ⟨2, ![16384, 1]⟩
abbrev S512x768 : Shape := ⟨2, ![512, 768]⟩
abbrev S512x1 : Shape := ⟨2, ![512, 1]⟩
abbrev S512x1024 : Shape := ⟨2, ![512, 1024]⟩
abbrev S512x2048 : Shape := ⟨2, ![512, 2048]⟩

abbrev nBuf : Space → Nat
  | .hbm => 11
  | .vmem => 10
  | .smem => 0
  | _ => 0

abbrev bufTy : (tb : Table) → Fin (tcTables nBuf tb) → BufTy
  | .hbm, ⟨0, _⟩ => ⟨S16384x768, .f32⟩
  | .hbm, ⟨1, _⟩ => ⟨S16384x768, .f32⟩
  | .hbm, ⟨2, _⟩ => ⟨S1024x768, .f32⟩
  | .hbm, ⟨3, _⟩ => ⟨S1024, .f32⟩
  | .hbm, ⟨4, _⟩ => ⟨S1x2048, .f32⟩
  | .hbm, ⟨5, _⟩ => ⟨S1, .f32⟩
  | .hbm, ⟨6, _⟩ => ⟨S768x1024, .f32⟩
  | .hbm, ⟨7, _⟩ => ⟨S1x1024, .f32⟩
  | .hbm, ⟨8, _⟩ => ⟨S2048x1, .f32⟩
  | .hbm, ⟨9, _⟩ => ⟨S1x1, .f32⟩
  | .hbm, ⟨10, _⟩ => ⟨S16384x1, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S768x1024, .f32⟩
  | .local _ .vmem, ⟨5, _⟩ => ⟨S1x1024, .f32⟩
  | .local _ .vmem, ⟨6, _⟩ => ⟨S2048x1, .f32⟩
  | .local _ .vmem, ⟨7, _⟩ => ⟨S1x1, .f32⟩
  | .local _ .vmem, ⟨8, _⟩ => ⟨S512x1, .f32⟩
  | .local _ .vmem, ⟨9, _⟩ => ⟨S512x1, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S1024x768_S768x1024_1_0 : S1024x768.Transposes [1, 0] S768x1024
  shapeCasts_S1024_S1x1024 : S1024.ShapeCasts S1x1024
  transposes_S1x2048_S2048x1_1_0 : S1x2048.Transposes [1, 0] S2048x1
  shapeCasts_S1_S1x1 : S1.ShapeCasts S1x1
  inb_S512x768_S512x768_0_0 : ∀ a, (![0, 0] : Fin 2 → Nat) a + S512x768.size a ≤ S512x768.size a
  h_S512x768 : 0 < S512x768.numel
  bitsLt_bf16_f32 : FTy.bits .bf16 < FTy.bits .f32
  inb_S768x1024_S768x1024_0_0 : ∀ a, (![0, 0] : Fin 2 → Nat) a + S768x1024.size a ≤ S768x1024.size a
  h_S768x1024 : 0 < S768x1024.numel
  shapeCasts_S768x1024_S768x1024 : S768x1024.ShapeCasts S768x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  concatenates_S512x1024_S512x1024_S512x2048_d1 : Shape.Concatenates [S512x1024, S512x1024] S512x2048 1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  dot_S512x768_S768x1024_S512x1024_1_0_0_1_n_n_wf : DotDims.WF S512x768 S768x1024 S512x1024 [1] [0] [0] [1] [] []
  dot_S512x2048_S2048x1_S512x1_1_0_0_1_n_n_wf : DotDims.WF S512x2048 S2048x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S16384x768.size a
  hwx0_0 : ∀ i : grid0.Coords, EltTy.bits .f32 = 32 ∨ (Rect.block (s := S16384x768) S512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x768.size a ≤ S16384x768.size a
  hwx0_1 : ∀ i : grid0.Coords, EltTy.bits .f32 = 32 ∨ (Rect.block (s := S16384x768) S512x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x1024.size a ≤ S768x1024.size a
  hwx0_2 : ∀ i : grid0.Coords, EltTy.bits .f32 = 32 ∨ (Rect.block (s := S768x1024) S768x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S2048x1.size a
  hwx0_4 : ∀ i : grid0.Coords, EltTy.bits .f32 = 32 ∨ (Rect.block (s := S2048x1) S2048x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S16384x1.size a
  hwx0_6 : ∀ i : grid0.Coords, EltTy.bits .f32 = 32 ∨ (Rect.block (s := S16384x1) S512x1.size (cc0_transform_6 i) (hinb0_6 i)).WholeWords (EltTy.packing .f32)

variable [Facts₀]

def dot_S512x768_S768x1024_S512x1024_1_0_0_1_n_n : DotDims S512x768 S768x1024 S512x1024 where
  lhsContracting := [1]
  rhsContracting := [0]
  lhsNonContracting := [0]
  rhsNonContracting := [1]
  lhsBatch := []
  rhsBatch := []
  wf := dot_S512x768_S768x1024_S512x1024_1_0_0_1_n_n_wf
def dot_S512x2048_S2048x1_S512x1_1_0_0_1_n_n : DotDims S512x2048 S2048x1 S512x1 where
  lhsContracting := [1]
  rhsContracting := [0]
  lhsNonContracting := [0]
  rhsNonContracting := [1]
  lhsBatch := []
  rhsBatch := []
  wf := dot_S512x2048_S2048x1_S512x1_1_0_0_1_n_n_wf

abbrev win0_0 : Pipeline.Window sig grid0 :=
  Pipeline.Window.ofSpec (Memref.whole main_arg0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S768x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2048x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S512x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x768 : Shape := ⟨2, ![16384, 768]⟩
abbrev S1024x768 : Shape := ⟨2, ![1024, 768]⟩
abbrev S1024 : Shape := ⟨1, ![1024]⟩
abbrev S1x2048 : Shape := ⟨2, ![1, 2048]⟩
abbrev S1 : Shape := ⟨1, ![1]⟩
abbrev S16384x1024 : Shape := ⟨2, ![16384, 1024]⟩
abbrev S1x1024 : Shape := ⟨2, ![1, 1024]⟩
abbrev S16384x2048 : Shape := ⟨2, ![16384, 2048]⟩
abbrev S_ : Shape := ⟨0, ![]⟩
abbrev S16384x1 : Shape := ⟨2, ![16384, 1]⟩
abbrev S1x1 : Shape := ⟨2, ![1, 1]⟩

abbrev nBuf : Space → Nat
  | .hbm => 36
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S16384x768, .f32⟩
  | .hbm, ⟨2, _⟩ => ⟨S1024x768, .f32⟩
  | .hbm, ⟨3, _⟩ => ⟨S1024, .f32⟩
  | .hbm, ⟨4, _⟩ => ⟨S1x2048, .f32⟩
  | .hbm, ⟨5, _⟩ => ⟨S1, .f32⟩
  | .hbm, ⟨6, _⟩ => ⟨S16384x1024, .f32⟩
  | .hbm, ⟨7, _⟩ => ⟨S1x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S16384x2048, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x1, .f32⟩
  | .hbm, ⟨25, _⟩ => ⟨S1x1, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  concatenates_S16384x1024_S16384x1024_S16384x2048_d1 : Shape.Concatenates [S16384x1024, S16384x1024] S16384x2048 1
  bcast_S_S16384x2048 : S_.BroadcastsInDim S16384x2048 (![] : Fin 0 → Fin S16384x2048.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  dot_S16384x768_S1024x768_S16384x1024_1_1_0_0_n_n_wf : DotDims.WF S16384x768 S1024x768 S16384x1024 [1] [1] [0] [0] [] []
  dot_S16384x2048_S1x2048_S16384x1_1_1_0_0_n_n_wf : DotDims.WF S16384x2048 S1x2048 S16384x1 [1] [1] [0] [0] [] []

variable [Facts₀]

def dot_S16384x768_S1024x768_S16384x1024_1_1_0_0_n_n : DotDims S16384x768 S1024x768 S16384x1024 where
  lhsContracting := [1]
  rhsContracting := [1]
  lhsNonContracting := [0]
  rhsNonContracting := [0]
  lhsBatch := []
  rhsBatch := []
  wf := dot_S16384x768_S1024x768_S16384x1024_1_1_0_0_n_n_wf
def dot_S16384x2048_S1x2048_S16384x1_1_1_0_0_n_n : DotDims S16384x2048 S1x2048 S16384x1 where
  lhsContracting := [1]
  rhsContracting := [1]
  lhsNonContracting := [0]
  rhsNonContracting := [0]
  lhsBatch := []
  rhsBatch := []
  wf := dot_S16384x2048_S1x2048_S16384x1_1_1_0_0_n_n_wf

class Facts : Prop extends Facts₀ where

variable [Facts]
-- ==== Proof.Spec.lean ====
/-
  The evaluation network's score of ONE position, on the extended reals, written free of any array layout.

  A position comes with two rows of 768 features, one per perspective (the side to move, and the other side).
  Each row goes through the same affine map into 1024 hidden units: unit `h` of a row `x` is
  `(∑ f, x f · w h f) + b h`. The two hidden rows are laid side by side into 2048 entries (the mover's first),
  every entry is clamped to the interval from 0 to 1 and squared, the 2048 squares are combined linearly with a
  second weight row `w₂` and a bias `b₂`, and the logistic function turns that number into the score.

  The bounds 0 and 1 of the clamp are kept as the two 32-bit patterns both programs print for them; nothing below
  depends on their values.
-/
import Idealize.ShloMosaic.Lib.ValueIdx
import Idealize.ShloMosaic.PureOps.Ideal

noncomputable section

open scoped BigOperators

namespace Cert.PerspectiveNet

open Idealize.ShloMosaic

/-- The clamp's lower bound, as the programs print it. -/
abbrev lo : EReal := Ideal.ofBits .f32 0x00000000#32
/-- The clamp's upper bound, as the programs print it. -/
abbrev hi : EReal := Ideal.ofBits .f32 0x3F800000#32

/-- Hidden unit `h` of one feature row: the row against row `h` of the first weight matrix, plus the unit's bias. -/
def hiddenUnit (x : Fin 768 → EReal) (w : Fin 1024 → Fin 768 → EReal) (b : Fin 1024 → EReal) (h : Fin 1024) : EReal :=
  (∑ f : Fin 768, x f * w h f) + b h

/-- The activation: clamp between the two bounds, then square. -/
def clipSq (z : EReal) : EReal := min hi (max lo z) * min hi (max lo z)

/-- Entry `k` of the two hidden rows laid side by side: the mover's 1024 units, then the other side's. -/
def joined (s n : Fin 768 → EReal) (w : Fin 1024 → Fin 768 → EReal) (b : Fin 1024 → EReal) (k : Fin 2048) : EReal :=
  if h : k.val < 1024 then hiddenUnit s w b ⟨k.val, h⟩ else hiddenUnit n w b ⟨k.val - 1024, by omega⟩

/-- The score of a position. -/
def score (s n : Fin 768 → EReal) (w : Fin 1024 → Fin 768 → EReal) (b : Fin 1024 → EReal) (w₂ : Fin 2048 → EReal)
    (b₂ : EReal) : EReal :=
  Ideal.logistic ((∑ k : Fin 2048, clipSq (joined s n w b k) * w₂ k) + b₂)

/-- Entries of the joined row below 1024 are the mover's hidden units. -/
theorem joined_lt (s n : Fin 768 → EReal) (w : Fin 1024 → Fin 768 → EReal) (b : Fin 1024 → EReal) (k : Fin 2048)
    (h : k.val < 1024) : joined s n w b k = hiddenUnit s w b ⟨k.val, h⟩ := dif_pos h

/-- Entries of the joined row from 1024 on are the other side's hidden units. -/
theorem joined_ge (s n : Fin 768 → EReal) (w : Fin 1024 → Fin 768 → EReal) (b : Fin 1024 → EReal) (k : Fin 2048)
    (h : ¬ k.val < 1024) : joined s n w b k = hiddenUnit n w b ⟨k.val - 1024, by omega⟩ := dif_neg h

/-- The network over whole arrays: row `r` of the result is the score of the position whose feature rows are row
    `r` of the two feature arrays; the first weight matrix is stored unit by feature, the second as one row. -/
def net (stm nstm : (⟨2, ![16384, 768]⟩ : Shape).Idx → EReal) (w1 : (⟨2, ![1024, 768]⟩ : Shape).Idx → EReal)
    (b1 : (⟨1, ![1024]⟩ : Shape).Idx → EReal) (w2 : (⟨2, ![1, 2048]⟩ : Shape).Idx → EReal)
    (b2 : (⟨1, ![1]⟩ : Shape).Idx → EReal) : (⟨2, ![16384, 1]⟩ : Shape).Idx → EReal := fun i =>
  score (fun f => stm (ValueIdx.ix2 (i 0) f)) (fun f => nstm (ValueIdx.ix2 (i 0) f)) (fun h f => w1 (ValueIdx.ix2 h f))
    (fun h => b1 (ValueIdx.ix1 h)) (fun k => w2 (ValueIdx.ix2 (0 : Fin 1) k)) (b2 (ValueIdx.ix1 (0 : Fin 1)))

end Cert.PerspectiveNet

end
-- ==== Proof.LibPlainDot.lean ====
/-
  A plain matrix product `[M, K] × [K, N] → [M, N]` read at one element, at the ideal values, at any extents.

  Whether it is a kernel's `tpu.matmul` into a zero accumulator or a host program's `dot_general`, with the left
  operand contracted along its second axis and the right one along its first and no batch axis, the element
  `(p, q)` of the product is `∑ k, lhs (p, k) · rhs (k, q)` on the extended reals, `k` running over the `K`
  positions of the contracted axis. The dimension numbers enter through equations on their lists, so that a
  program's own record (whose lists are literals) supplies each by `rfl`.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Among equal positions an index has equal coordinates (the positions here are sums of list lengths). -/
private theorem val_congr {s : Shape} (j : s.Idx) (a b : Nat) (ha : a < s.rank) (hb : b < s.rank) (h : a = b) :
    (j ⟨a, ha⟩).val = (j ⟨b, hb⟩).val := by subst h; rfl

/-- The left operand's row is the result's row. -/
theorem lhs_row (hlb : d.lhsBatch = []) (hln : d.lhsNonContracting = [0]) (j : (⟨2, ![M, N]⟩ : Shape).Idx)
    (k : d.contr.Idx) : (d.lhsIdx j k 0).val = (j 0).val := by
  unfold DotDims.lhsIdx
  rw [dif_neg (by rw [hlb]; exact List.not_mem_nil),
    dif_pos (show (0 : Fin 2) ∈ d.lhsNonContracting by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil),
    dif_pos (show (1 : Fin 2) ∈ d.rhsNonContracting by rw [hrn]; exact List.mem_singleton.mpr rfl)]
  simp only [Fin.val_cast]
  exact val_congr j _ _ _ _ (by simp [hlb, hln, hrn])

section Sum

variable (hlb : d.lhsBatch = []) (hrb : d.rhsBatch = []) (hln : d.lhsNonContracting = [0])
  (hrn : d.rhsNonContracting = [1]) (hlc : d.lhsContracting = [1]) (hrc : d.rhsContracting = [0])
  (hr : d.contr.rank = 1) (hs : d.contr.size ⟨0, by omega⟩ = K)

include hlb hrb hln hrn hlc hrc hr hs

/-- The contraction's sum, its index set re-indexed by the contracted axis's positions. -/
theorem sum_contr (lhs : (⟨2, ![M, K]⟩ : Shape).Idx → EReal) (rhs : (⟨2, ![K, N]⟩ : Shape).Idx → EReal) (p : Fin M)
    (q : Fin N) :
    ∑ k : d.contr.Idx, lhs (d.lhsIdx (ix2 p q) k) * rhs (d.rhsIdx (ix2 p q) k)
      = ∑ k : Fin K, lhs (ix2 p k) * rhs (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := by
    funext a; refine Fin.ext ?_
    match a with
    | ⟨0, _⟩ => exact lhs_row d hlb hln _ _
    | ⟨1, _⟩ => exact (lhs_col d hlc _ _).trans hk
  have er : d.rhsIdx (ix2 p q) ((contrEquiv1 d K hr hs).symm k) = ix2 k q := by
    funext a; refine Fin.ext ?_
    match a with
    | ⟨0, _⟩ => exact (rhs_row d hrc _ _).trans hk
    | ⟨1, _⟩ => exact rhs_col d hlb hrb hln hrn _ _
  rw [el, er]

/-- A kernel's `tpu.matmul` into the zero splat, at `(p, q)`. -/
theorem matmul_zero_apply {φ₁ φ₂ : FTy} (prec : Option ContractPrecision) (lhs : FVec Ideal ⟨2, ![M, K]⟩ φ₁)
    (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact sum_contr d hlb hrb hln hrn hlc hrc hr hs lhs rhs p q

/-- A host program's `dot_general`, at `(p, q)`. -/
theorem dotGeneral_apply {φ₁ φ₂ : FTy} (prec : Option ContractPrecision) (lhs : FVec Ideal ⟨2, ![M, K]⟩ φ₁)
    (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec .single lhs rhs (ix2 p q) = _
  rw [Ideal.dotGeneral_apply]
  exact sum_contr d hlb hrb hln hrn hlc hrc hr hs lhs rhs p q

end Sum

end Idealize.ShloMosaic.PlainDot
-- ==== Proof.Body.lean ====
/-
  What the kernel's body computes from the blocks it loads, read at one element.

  At a grid point the body holds 512 rows of each feature array, the first weight matrix stored feature by unit
  (768 × 1024), its bias as one row, the second weight row stored as a column (2048 × 1) and its bias as a 1 × 1
  block. Row `p` of what it stores is the score (Spec.lean) of the position whose two feature rows are row `p` of
  the two feature blocks: each matrix product into a zero accumulator is a plain sum of products on the extended
  reals, the narrowing to 16-bit floats in front of every product is the identity there, and the side-by-side join of the
  two hidden blocks reads the first block on columns below 1024 and the second one, 1024 columns to the left, from
  there on.
-/
import proofs.«103659_j82386062672602_1_alg».proof.Proof.Gen.KernelIdeal.Skeleton
import proofs.«103659_j82386062672602_1_alg».proof.Proof.Spec
import proofs.«103659_j82386062672602_1_alg».proof.Proof.LibPlainDot
import Idealize.ShloMosaic.Lib.Pipeline.Value
import Idealize.ShloMosaic.Lib.ValueIdx

noncomputable section

open scoped BigOperators

namespace Cert.KernelIdeal.Body

open Cert.KernelIdeal Cert.KernelIdeal.Gen Idealize.ShloMosaic Idealize.ShloMosaic.ValueIdx Cert.PerspectiveNet

/-- One perspective's hidden block: the feature block against the first weight matrix, plus the bias row on every row. -/
def hblk (x : Vec Ideal S512x768 .f32) (w : Vec Ideal S768x1024 .f32) (b : Vec Ideal S1x1024 .f32) :
    FVec Ideal S512x1024 .f32 :=
  addf (matmul dot_S512x768_S768x1024_S512x1024_1_0_0_1_n_n none (truncf .bf16 x bitsLt_bf16_f32)
      (truncf .bf16 (shapeCast S768x1024 w shapeCasts_S768x1024_S768x1024) bitsLt_bf16_f32)
      (constant S512x1024 .f32 0x00000000#32))
    (broadcastTo S512x1024 (shapeCast S1x1024 b shapeCasts_S1x1024_S1x1024) broadcasts_S1x1024_S512x1024)

/-- The two hidden blocks side by side, before the activation. -/
def jblk (x0 x1 : Vec Ideal S512x768 .f32) (w : Vec Ideal S768x1024 .f32) (b : Vec Ideal S1x1024 .f32) :
    FVec Ideal S512x2048 .f32 :=
  concatenate S512x2048 1 [⟨S512x1024, hblk x0 w b⟩, ⟨S512x1024, hblk x1 w b⟩] concatenates_S512x1024_S512x1024_S512x2048_d1

/-- The activated block: every entry clamped between the two bounds and squared. -/
def ablk (x0 x1 : Vec Ideal S512x768 .f32) (w : Vec Ideal S768x1024 .f32) (b : Vec Ideal S1x1024 .f32) :
    FVec Ideal S512x2048 .f32 :=
  mulf (minimumf (broadcast S512x2048 (Scalar.ofBits .f32 0x3F800000#32))
      (maximumf (broadcast S512x2048 (Scalar.ofBits .f32 0x00000000#32)) (jblk x0 x1 w b)))
    (minimumf (broadcast S512x2048 (Scalar.ofBits .f32 0x3F800000#32))
      (maximumf (broadcast S512x2048 (Scalar.ofBits .f32 0x00000000#32)) (jblk x0 x1 w b)))

/-- The body's one stored value is the logistic of the activated block against the second weight column, plus its bias. -/
theorem pay_eq (x0 x1 : Vec Ideal S512x768 .f32) (x2 : Vec Ideal S768x1024 .f32) (x3 : Vec Ideal S1x1024 .f32)
    (x4 : Vec Ideal S2048x1 .f32) (x5 : Vec Ideal S1x1 .f32) :
    k0_pay1 (F := Ideal) x0 x1 x2 x3 x4 x5
      = logistic (addf (matmul dot_S512x2048_S2048x1_S512x1_1_0_0_1_n_n none (truncf .bf16 (ablk x0 x1 x2 x3) bitsLt_bf16_f32)
          (truncf .bf16 (shapeCast S2048x1 x4 shapeCasts_S2048x1_S2048x1) bitsLt_bf16_f32) (constant S512x1 .f32 0x00000000#32))
        (broadcastTo S512x1 (shapeCast S1x1 x5 shapeCasts_S1x1_S1x1) broadcasts_S1x1_S512x1)) := rfl

/-- A hidden block at row `p`, unit `h`. -/
theorem hblk_apply (x : Vec Ideal S512x768 .f32) (w : Vec Ideal S768x1024 .f32) (b : Vec Ideal S1x1024 .f32)
    (p : Fin 512) (h : Fin 1024) :
    hblk x w b (ix2 p h)
      = hiddenUnit (fun f => x (ix2 p f)) (fun h f => w (ix2 f h)) (fun h => b (ix2 (0 : Fin 1) h)) h := by
  unfold hblk hiddenUnit
  rw [addf_apply, PlainDot.matmul_zero_apply _ rfl rfl rfl rfl rfl rfl rfl rfl, shapeCast_self, shapeCast_self,
    broadcastTo_apply b broadcasts_S1x1024_S512x1024 (ix2 p h) (ix2 (0 : Fin 1) h) (fun a => match a with
      | ⟨0, _⟩ => by show 0 = if (1 : Nat) = 1 then 0 else p.val; rw [if_pos rfl]
      | ⟨1, _⟩ => by show h.val = if (1024 : Nat) = 1 then 0 else h.val; rw [if_neg (by decide)])]
  rfl

/-- The joined block at row `p`, column `k`. -/
theorem jblk_apply (x0 x1 : Vec Ideal S512x768 .f32) (w : Vec Ideal S768x1024 .f32) (b : Vec Ideal S1x1024 .f32)
    (p : Fin 512) (k : Fin 2048) :
    jblk x0 x1 w b (ix2 p k)
      = joined (fun f => x0 (ix2 p f)) (fun f => x1 (ix2 p f)) (fun h f => w (ix2 f h)) (fun h => b (ix2 (0 : Fin 1) h)) k := by
  unfold jblk
  by_cases hk : k.val < 1024
  · rw [joined_lt _ _ _ _ k hk, ← hblk_apply x0 w b p ⟨k.val, hk⟩]
    exact concatenate_pair_apply_left (s₁ := S512x1024) (s₂ := S512x1024) (1 : Fin S512x2048.rank) (hblk x0 w b) (hblk x1 w b)
      concatenates_S512x1024_S512x1024_S512x2048_d1 (ix2 p k) rfl (ix2 p (⟨k.val, hk⟩ : Fin 1024))
      (fun a => match a with | ⟨0, _⟩ => rfl | ⟨1, _⟩ => rfl)
  · have hk' : k.val - 1024 < 1024 := by have := k.isLt; omega
    rw [joined_ge _ _ _ _ k hk, ← hblk_apply x1 w b p ⟨k.val - 1024, hk'⟩]
    exact concatenate_pair_apply_right (s₁ := S512x1024) (s₂ := S512x1024) (1 : Fin S512x2048.rank) (hblk x0 w b) (hblk x1 w b)
      concatenates_S512x1024_S512x1024_S512x2048_d1 (ix2 p k) rfl rfl (ix2 p (⟨k.val - 1024, hk'⟩ : Fin 1024))
      (fun a => match a with | ⟨0, _⟩ => fun _ => rfl | ⟨1, _⟩ => fun hne => absurd rfl hne)
      (by show (k.val - 1024) + 1024 = k.val; omega)

/-- The activated block at row `p`, column `k`. -/
theorem ablk_apply (x0 x1 : Vec Ideal S512x768 .f32) (w : Vec Ideal S768x1024 .f32) (b : Vec Ideal S1x1024 .f32)
    (p : Fin 512) (k : Fin 2048) :
    ablk x0 x1 w b (ix2 p k)
      = clipSq (joined (fun f => x0 (ix2 p f)) (fun f => x1 (ix2 p f)) (fun h f => w (ix2 f h))
          (fun h => b (ix2 (0 : Fin 1) h)) k) := by
  unfold ablk clipSq
  rw [mulf_apply, minimumf_apply, maximumf_apply, broadcast_apply, broadcast_apply, jblk_apply]
  rfl

/-- THE BODY AT ONE ELEMENT: row `p` of the stored block is the score of the position whose feature rows are row `p` of
    the two feature blocks, the weights read through the layouts the body is given them in. -/
theorem pay_apply (x0 x1 : Vec Ideal S512x768 .f32) (x2 : Vec Ideal S768x1024 .f32) (x3 : Vec Ideal S1x1024 .f32)
    (x4 : Vec Ideal S2048x1 .f32) (x5 : Vec Ideal S1x1 .f32) (p : Fin 512) (q : Fin 1) :
    k0_pay1 (F := Ideal) x0 x1 x2 x3 x4 x5 (ix2 p q)
      = score (fun f => x0 (ix2 p f)) (fun f => x1 (ix2 p f)) (fun h f => x2 (ix2 f h)) (fun h => x3 (ix2 (0 : Fin 1) h))
          (fun k => x4 (ix2 k q)) (x5 (ix2 (0 : Fin 1) (0 : Fin 1))) := by
  rw [pay_eq]
  unfold score
  show Ideal.logistic _ = _
  congr 1
  rw [addf_apply, PlainDot.matmul_zero_apply _ rfl rfl rfl rfl rfl rfl rfl rfl, shapeCast_self, shapeCast_self,
    broadcastTo_apply x5 broadcasts_S1x1_S512x1 (ix2 p q) (ix2 (0 : Fin 1) (0 : Fin 1)) (fun a => match a with
      | ⟨0, _⟩ => by show 0 = if (1 : Nat) = 1 then 0 else p.val; rw [if_pos rfl]
      | ⟨1, _⟩ => by show 0 = if (1 : Nat) = 1 then 0 else q.val; rw [if_pos rfl])]
  congr 1
  refine Finset.sum_congr rfl fun k _ => ?_
  rw [truncf_apply, truncf_apply, ablk_apply]

end Cert.KernelIdeal.Body

end
-- ==== Proof.NetValue.lean ====
/-
  What the kernel's result array holds after the run: the network of Spec.lean applied to the six arguments.

  The grid has 32 points. Point `t` is given rows `512 t … 512 t + 511` of each feature array and writes rows
  `512 t … 512 t + 511` of the result; the four weight operands are given whole at every point. Before the region
  the host lays the weights out for the body: the first weight matrix transposed (feature by unit), its bias as one
  row, the second weight row transposed into a column, its bias as a 1 × 1 array. Read back through those layouts,
  row `p` of what point `t` stores (Body.lean) is the score of the position in row `512 t + p`, which is the
  network's row `512 t + p`. The 32 blocks of 512 rows cover the 16384 rows, so the array ends at the network.
-/
import proofs.«103659_j82386062672602_1_alg».proof.Proof.Gen.KernelIdeal.Value
import proofs.«103659_j82386062672602_1_alg».proof.Proof.Body
import proofs.«103659_j82386062672602_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.NetValue

open Cert.KernelIdeal Cert.KernelIdeal.Gen Idealize.ShloMosaic Idealize.ShloMosaic.TcCoe Idealize.SL.Sem
open Idealize.ShloMosaic.ValueIdx Idealize.ShloMosaic.StableHlo Cert.PerspectiveNet
open Idealize.ShloMosaic.Pipeline (Dat)

variable (m : (ℓ : Loc nD τ sig) → Buf (Elt Ideal) ℓ) (ρ : Dev nD → PrngReg)

/-! ## The weights as the region finds them -/

/-- The first weight matrix as the body is given it: transposed, so that (feature, unit) reads (unit, feature). -/
theorem w1_layout (c : Dev nD) (f : Fin 768) (h : Fin 1024) :
    (V m c main_v0 : S768x1024.Idx → EReal) (ix2 f h)
      = (m ((c : Thread nD τ).loc main_arg2) : S1024x768.Idx → EReal) (ix2 h f) := by
  have e : (V m c main_v0 : S768x1024.Idx → EReal)
      = transpose S768x1024 [1, 0] (m ((c : Thread nD τ).loc main_arg2) : S1024x768.Idx → EReal) transposes_S1024x768_S768x1024_1_0 := by
    dsimp only [Gen.V, Gen.hostOps0]; after_results
  rw [e]
  exact transpose_ix2_apply _ _ f h

/-- The first bias as the body is given it: one row. -/
theorem b1_layout (c : Dev nD) (h : Fin 1024) :
    (V m c main_v1 : S1x1024.Idx → EReal) (ix2 (0 : Fin 1) h)
      = (m ((c : Thread nD τ).loc main_arg3) : S1024.Idx → EReal) (ix1 h) := by
  have e : (V m c main_v1 : S1x1024.Idx → EReal)
      = shapeCast S1x1024 (m ((c : Thread nD τ).loc main_arg3) : S1024.Idx → EReal) shapeCasts_S1024_S1x1024 := by
    dsimp only [Gen.V, Gen.hostOps0]; after_results; rfl
  rw [e]
  refine shapeCast_apply _ _ _ _ ?_
  show ((⟨1, ![1024]⟩ : Shape).rowMajor (ix1 h)).val = ((⟨2, ![1, 1024]⟩ : Shape).rowMajor (ix2 (0 : Fin 1) h)).val
  rw [Shape.rowMajor_val_one, Shape.rowMajor_val_two]
  show h.val = 0 * 1024 + h.val
  omega

/-- The second weight row as the body is given it: a column. -/
theorem w2_layout (c : Dev nD) (k : Fin 2048) (q : Fin 1) :
    (V m c main_v2 : S2048x1.Idx → EReal) (ix2 k q)
      = (m ((c : Thread nD τ).loc main_arg4) : S1x2048.Idx → EReal) (ix2 (0 : Fin 1) k) := by
  have e : (V m c main_v2 : S2048x1.Idx → EReal)
      = transpose S2048x1 [1, 0] (m ((c : Thread nD τ).loc main_arg4) : S1x2048.Idx → EReal) transposes_S1x2048_S2048x1_1_0 := by
    dsimp only [Gen.V, Gen.hostOps0]; after_results
  rw [e, transpose_ix2_apply _ _ k q]
  have hq : q = (0 : Fin 1) := Fin.ext (by have := q.isLt; omega)
  rw [hq]

/-- The second bias as the body is given it: a 1 × 1 array. -/
theorem b2_layout (c : Dev nD) :
    (V m c main_v3 : S1x1.Idx → EReal) (ix2 (0 : Fin 1) (0 : Fin 1))
      = (m ((c : Thread nD τ).loc main_arg5) : S1.Idx → EReal) (ix1 (0 : Fin 1)) := by
  have e : (V m c main_v3 : S1x1.Idx → EReal)
      = shapeCast S1x1 (m ((c : Thread nD τ).loc main_arg5) : S1.Idx → EReal) shapeCasts_S1_S1x1 := by
    dsimp only [Gen.V, Gen.hostOps0]; after_results; rfl
  rw [e]
  refine shapeCast_apply _ _ _ _ ?_
  show ((⟨1, ![1]⟩ : Shape).rowMajor (ix1 (0 : Fin 1))).val = ((⟨2, ![1, 1]⟩ : Shape).rowMajor (ix2 (0 : Fin 1) (0 : Fin 1))).val
  rw [Shape.rowMajor_val_one, Shape.rowMajor_val_two]
  rfl

/-! ## The blocks -/

theorem hz : (![0, 0] : Fin 2 → Nat) = fun _ => 0 := funext fun a => by fin_cases a <;> rfl

/-- The printed index maps over the grid: the two feature windows and the result window move one block of rows per
    point; the four weight windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The array row that row `p` of point `t`'s blocks is. -/
def row (t : Fin cfg0.N) (p : Fin 512) : Fin 16384 :=
  ⟨512 * t.val + p.val, by have hN : cfg0.N = 32 := N_0; have := t.isLt; have := p.isLt; omega⟩

/-- The network of the six arguments as core `c` was launched with them. -/
def netOf (c : Dev nD) : S16384x1.Idx → EReal :=
  net (m ((c : Thread nD τ).loc main_arg0) : S16384x768.Idx → EReal) (m ((c : Thread nD τ).loc main_arg1) : S16384x768.Idx → EReal)
    (m ((c : Thread nD τ).loc main_arg2) : S1024x768.Idx → EReal) (m ((c : Thread nD τ).loc main_arg3) : S1024.Idx → EReal)
    (m ((c : Thread nD τ).loc main_arg4) : S1x2048.Idx → EReal) (m ((c : Thread nD τ).loc main_arg5) : S1.Idx → EReal)

/-- Point `t`'s block of the result array puts its row `p` at array row `512 t + p`. -/
theorem emb_out (t : Fin cfg0.N) (p : Fin 512) (q : Fin 1) :
    ((cfg0.win 6).blk t).view.emb (ix2 p q) = ix2 (row t p) (0 : Fin 1) := by
  obtain ⟨-, -, -, -, -, -, -, -, -, -, -, -, e0, e1⟩ := idx_facts t
  funext a; apply Fin.ext
  match a with
  | ⟨0, _⟩ => show win0_6.index t (0 : Fin 2) * 512 + 1 * p.val = 512 * t.val + p.val; omega
  | ⟨1, _⟩ => show win0_6.index t (1 : Fin 2) * 1 + 1 * q.val = 0; have := q.isLt; omega

/-- Row `p` of point `t`'s block of the mover's features is row `512 t + p` of the array. -/
theorem stm_blk (c : Dev nD) (t : Fin cfg0.N) (p : Fin 512) (f : Fin 768) :
    (iblk m c 0 t : Vec Ideal S512x768 .f32) (ix2 p f) = (m ((c : Thread nD τ).loc main_arg0) : S16384x768.Idx → EReal) (ix2 (row t p) f) := by
  obtain ⟨e0, e1, -⟩ := idx_facts t
  show V m c main_arg0 (((cfg0.win 0).blk t).view.emb (ix2 p f)) = _
  rw [V_main_arg0]
  refine congrArg _ (funext fun a => Fin.ext ?_)
  match a with
  | ⟨0, _⟩ => show win0_0.index t (0 : Fin 2) * 512 + 1 * p.val = 512 * t.val + p.val; omega
  | ⟨1, _⟩ => show win0_0.index t (1 : Fin 2) * 768 + 1 * f.val = f.val; omega

/-- Row `p` of point `t`'s block of the other side's features is row `512 t + p` of the array. -/
theorem nstm_blk (c : Dev nD) (t : Fin cfg0.N) (p : Fin 512) (f : Fin 768) :
    (iblk m c 1 t : Vec Ideal S512x768 .f32) (ix2 p f) = (m ((c : Thread nD τ).loc main_arg1) : S16384x768.Idx → EReal) (ix2 (row t p) f) := by
  obtain ⟨-, -, e0, e1, -⟩ := idx_facts t
  show V m c main_arg1 (((cfg0.win 1).blk t).view.emb (ix2 p f)) = _
  rw [V_main_arg1]
  refine congrArg _ (funext fun a => Fin.ext ?_)
  match a with
  | ⟨0, _⟩ => show win0_1.index t (0 : Fin 2) * 512 + 1 * p.val = 512 * t.val + p.val; omega
  | ⟨1, _⟩ => show win0_1.index t (1 : Fin 2) * 768 + 1 * f.val = f.val; omega

/-- Every point's block of the first weight matrix is the whole transposed matrix. -/
theorem w1_blk (c : Dev nD) (t : Fin cfg0.N) (f : Fin 768) (h : Fin 1024) :
    (iblk m c 2 t : Vec Ideal S768x1024 .f32) (ix2 f h) = (m ((c : Thread nD τ).loc main_arg2) : S1024x768.Idx → EReal) (ix2 h f) := by
  obtain ⟨-, -, -, -, e0, e1, -⟩ := idx_facts t
  show V m c main_v0 (((cfg0.win 2).blk t).view.emb (ix2 f h)) = _
  have he : ((cfg0.win 2).blk t).view.emb (ix2 f h) = ix2 f h := funext fun a => Fin.ext (by
    match a with
    | ⟨0, _⟩ => show win0_2.index t (0 : Fin 2) * 768 + 1 * f.val = f.val; omega
    | ⟨1, _⟩ => show win0_2.index t (1 : Fin 2) * 1024 + 1 * h.val = h.val; omega)
  rw [he]
  exact w1_layout m c f h

/-- Every point's block of the first bias is the whole row. -/
theorem b1_blk (c : Dev nD) (t : Fin cfg0.N) (h : Fin 1024) :
    (iblk m c 3 t : Vec Ideal S1x1024 .f32) (ix2 (0 : Fin 1) h) = (m ((c : Thread nD τ).loc main_arg3) : S1024.Idx → EReal) (ix1 h) := by
  obtain ⟨-, -, -, -, -, -, e0, e1, -⟩ := idx_facts t
  show V m c main_v1 (((cfg0.win 3).blk t).view.emb (ix2 (0 : Fin 1) h)) = _
  have he : ((cfg0.win 3).blk t).view.emb (ix2 (0 : Fin 1) h) = ix2 (0 : Fin 1) h := funext fun a => Fin.ext (by
    match a with
    | ⟨0, _⟩ => show win0_3.index t (0 : Fin 2) * 1 + 1 * 0 = 0; omega
    | ⟨1, _⟩ => show win0_3.index t (1 : Fin 2) * 1024 + 1 * h.val = h.val; omega)
  rw [he]
  exact b1_layout m c h

/-- Every point's block of the second weights is the whole column. -/
theorem w2_blk (c : Dev nD) (t : Fin cfg0.N) (k : Fin 2048) (q : Fin 1) :
    (iblk m c 4 t : Vec Ideal S2048x1 .f32) (ix2 k q) = (m ((c : Thread nD τ).loc main_arg4) : S1x2048.Idx → EReal) (ix2 (0 : Fin 1) k) := by
  obtain ⟨-, -, -, -, -, -, -, -, e0, e1, -⟩ := idx_facts t
  show V m c main_v2 (((cfg0.win 4).blk t).view.emb (ix2 k q)) = _
  have he : ((cfg0.win 4).blk t).view.emb (ix2 k q) = ix2 k q := funext fun a => Fin.ext (by
    match a with
    | ⟨0, _⟩ => show win0_4.index t (0 : Fin 2) * 2048 + 1 * k.val = k.val; omega
    | ⟨1, _⟩ => show win0_4.index t (1 : Fin 2) * 1 + 1 * q.val = q.val; omega)
  rw [he]
  exact w2_layout m c k q

/-- Every point's block of the second bias is the 1 × 1 array. -/
theorem b2_blk (c : Dev nD) (t : Fin cfg0.N) :
    (iblk m c 5 t : Vec Ideal S1x1 .f32) (ix2 (0 : Fin 1) (0 : Fin 1)) = (m ((c : Thread nD τ).loc main_arg5) : S1.Idx → EReal) (ix1 (0 : Fin 1)) := by
  obtain ⟨-, -, -, -, -, -, -, -, -, -, e0, e1, -⟩ := idx_facts t
  show V m c main_v3 (((cfg0.win 5).blk t).view.emb (ix2 (0 : Fin 1) (0 : Fin 1))) = _
  have he : ((cfg0.win 5).blk t).view.emb (ix2 (0 : Fin 1) (0 : Fin 1)) = ix2 (0 : Fin 1) (0 : Fin 1) :=
    funext fun a => Fin.ext (by
      match a with
      | ⟨0, _⟩ => show win0_5.index t (0 : Fin 2) * 1 + 1 * 0 = 0; omega
      | ⟨1, _⟩ => show win0_5.index t (1 : Fin 2) * 1 + 1 * 0 = 0; omega)
  rw [he]
  exact b2_layout m c

/-! ## From the blocks to the array -/

/-- WHAT POINT `t` WRITES BACK is block `t` of the network of the arguments. -/
theorem flushed_eq (c : Dev nD) (t : Fin cfg0.N) :
    (dats m 0 c).flushed 6 t = ((cfg0.win 6).blk t).view.read (Elt Ideal) (netOf m c) := by
  rw [Cert.KernelIdeal.Value.flushed6]
  unfold out0_6
  rw [View.canon_unit_zero hz]
  simp only [View.ld_unit_zero (S := S512x768) hz, View.ld_unit_zero (S := S768x1024) hz,
    View.ld_unit_zero (S := S1x1024) hz, View.ld_unit_zero (S := S2048x1) hz, View.ld_unit_zero (S := S1x1) hz]
  refine funext fun (j : S512x1.Idx) => ?_
  obtain ⟨p, q, rfl⟩ : ∃ (p : Fin 512) (q : Fin 1), j = ix2 p q := ⟨j 0, j 1, eq_ix2 j⟩
  show k0_pay1 (F := Ideal) (iblk m c 0 t) (iblk m c 1 t) (iblk m c 2 t) (iblk m c 3 t) (iblk m c 4 t) (iblk m c 5 t) (ix2 p q)
    = netOf m c (((cfg0.win 6).blk t).view.emb (ix2 p q))
  rw [emb_out]
  refine (Body.pay_apply (iblk m c 0 t) (iblk m c 1 t) (iblk m c 2 t) (iblk m c 3 t) (iblk m c 4 t) (iblk m c 5 t) p q).trans ?_
  have h0 : (fun f => (iblk m c 0 t : Vec Ideal S512x768 .f32) (ix2 p f)) = fun f => (m ((c : Thread nD τ).loc main_arg0) : S16384x768.Idx → EReal) (ix2 (row t p) f) :=
    funext fun f => stm_blk m c t p f
  have h1 : (fun f => (iblk m c 1 t : Vec Ideal S512x768 .f32) (ix2 p f)) = fun f => (m ((c : Thread nD τ).loc main_arg1) : S16384x768.Idx → EReal) (ix2 (row t p) f) :=
    funext fun f => nstm_blk m c t p f
  have h2 : (fun h f => (iblk m c 2 t : Vec Ideal S768x1024 .f32) (ix2 f h)) = fun h f => (m ((c : Thread nD τ).loc main_arg2) : S1024x768.Idx → EReal) (ix2 h f) :=
    funext fun h => funext fun f => w1_blk m c t f h
  have h3 : (fun h => (iblk m c 3 t : Vec Ideal S1x1024 .f32) (ix2 (0 : Fin 1) h)) = fun h => (m ((c : Thread nD τ).loc main_arg3) : S1024.Idx → EReal) (ix1 h) :=
    funext fun h => b1_blk m c t h
  have h4 : (fun k => (iblk m c 4 t : Vec Ideal S2048x1 .f32) (ix2 k q)) = fun k => (m ((c : Thread nD τ).loc main_arg4) : S1x2048.Idx → EReal) (ix2 (0 : Fin 1) k) :=
    funext fun k => w2_blk m c t k q
  rw [h0, h1, h2, h3, h4, b2_blk m c t]
  rfl

/-- An index of the result array is in point `t`'s block iff each coordinate is in the block's range on its axis. -/
theorem mem_blk (t : Fin cfg0.N) (i : S16384x1.Idx) :
    i ∈ ((cfg0.win 6).blk t).view.set ↔ ∀ a : Fin 2, win0_6.index t a * S512x1.size a ≤ (i a).val ∧ (i a).val < win0_6.index t a * S512x1.size a + S512x1.size a := by
  show i ∈ ((View.whole main_v4).slice (win0_6.rect t)).set ↔ _
  rw [View.set_slice_whole, Rect.mem_set_unit]
  exact Iff.rfl

/-- The 32 blocks of 512 rows cover the 16384 rows: row `r` is in the block of point `r / 512`. -/
theorem cover (i : S16384x1.Idx) : ∃ t : Fin cfg0.N, (cfg0.win 6).flush t = true ∧ i ∈ ((cfg0.win 6).blk t).view.set := by
  have hi0 : (i 0).val < 16384 := (i 0).isLt
  have hi1 : (i 1).val < 1 := (i 1).isLt
  have hN : cfg0.N = 32 := N_0
  have hlt : (i 0).val / 512 < cfg0.N := by omega
  refine ⟨⟨(i 0).val / 512, hlt⟩, flush0_6 _, ?_⟩
  rw [mem_blk]
  obtain ⟨-, -, -, -, -, -, -, -, -, -, -, -, e0, e1⟩ := idx_facts ⟨(i 0).val / 512, hlt⟩
  have e0' : win0_6.index ⟨(i 0).val / 512, hlt⟩ (0 : Fin 2) = (i 0).val / 512 := e0
  intro a
  match a with
  | ⟨0, _⟩ =>
    show win0_6.index ⟨(i 0).val / 512, hlt⟩ (0 : Fin 2) * 512 ≤ (i 0).val
      ∧ (i 0).val < win0_6.index ⟨(i 0).val / 512, hlt⟩ (0 : Fin 2) * 512 + 512
    omega
  | ⟨1, _⟩ =>
    show win0_6.index ⟨(i 0).val / 512, hlt⟩ (1 : Fin 2) * 1 ≤ (i 1).val
      ∧ (i 1).val < win0_6.index ⟨(i 0).val / 512, hlt⟩ (1 : Fin 2) * 1 + 1
    omega

/-- THE RESULT ARRAY after the run is the network of the arguments. -/
theorem final (c : Dev nD) : (dats m 0 c).arrAt 6 cfg0.N = netOf m c :=
  (dats m 0 c).arrAt_eq_of_cover 6 (netOf m c) (fun t _ => flushed_eq m c t) cover

/-- The kernel's run, read: the result array at the network of the arguments, the arguments unchanged. -/
theorem run : θ_run defs (onTc (τ := τ) (main (F := Ideal))) ⟨m, fun _ => 0, ρ⟩ fun r => ∀ c : Dev nD,
      r.2.mem ((c : Thread nD τ).loc main_v4) = netOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.NetValue

end
-- ==== Proof.RefValue.lean ====
/-
  The reference program's result, stage by stage, is the network of Spec.lean applied to its six arguments.

  The reference multiplies each feature array with the first weight matrix by contracting the feature axis of both
  (so unit `h` of row `r` is the sum over features of feature times weight, the weight read at (unit, feature)), adds
  the bias along rows, joins the two results along the unit axis, clamps, squares, contracts the 2048 joined entries
  against the single row of the second weight matrix, adds the second bias and applies `1 / (1 + e^(-x))`, which is
  the logistic function on the extended reals once the pattern of the literal one is read as the number 1.
-/
import proofs.«103659_j82386062672602_1_alg».proof.Proof.Gen.ReferenceIdeal.Read
import proofs.«103659_j82386062672602_1_alg».proof.Proof.Spec
import Idealize.ShloMosaic.Lib.Pipeline.Value
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx
open Cert.PerspectiveNet

/-- The 32-bit pattern of the literal one denotes the number 1. -/
theorem one_f32 : Ideal.ofBits .f32 0x3F800000#32 = 1 := by
  simp [Ideal.ofBits, Ideal.ieee, -EReal.coe_mul]; norm_num

variable (x0 x1 : (⟨S16384x768, .f32⟩ : BufTy).Contents (Elt Ideal)) (x2 : (⟨S1024x768, .f32⟩ : BufTy).Contents (Elt Ideal))
  (x3 : (⟨S1024, .f32⟩ : BufTy).Contents (Elt Ideal)) (x4 : (⟨S1x2048, .f32⟩ : BufTy).Contents (Elt Ideal))
  (x5 : (⟨S1, .f32⟩ : BufTy).Contents (Elt Ideal))

/-- The mover's hidden array at row `r`, unit `h`. -/
theorem hidden_s (r : Fin 16384) (h : Fin 1024) :
    val_main_v3 (F := Ideal) x0 x2 x3 (ix2 r h)
      = hiddenUnit (fun f => x0 (ix2 r f)) (fun h f => x2 (ix2 h f)) (fun h => x3 (ix1 h)) h := by
  rw [val_main_v3_apply, val_main_v0_apply, val_main_v2_apply, val_main_v1_apply]
  have el : ∀ k, lidx_main_v0 (ix2 r h) k = ix2 r k := fun k => funext fun a => Fin.ext (by
    match a with | ⟨0, _⟩ => rfl | ⟨1, _⟩ => rfl)
  have er : ∀ k, ridx_main_v0 (ix2 r h) k = ix2 h k := fun k => funext fun a => Fin.ext (by
    match a with | ⟨0, _⟩ => rfl | ⟨1, _⟩ => rfl)
  have eb : idx_main_v1 (idx_main_v2 (ix2 r h)) = ix1 h := funext fun a => Fin.ext (by
    match a with | ⟨0, _⟩ => rfl)
  simp only [el, er, eb]
  rfl

/-- The other side's hidden array at row `r`, unit `h`. -/
theorem hidden_n (r : Fin 16384) (h : Fin 1024) :
    val_main_v7 (F := Ideal) x1 x2 x3 (ix2 r h)
      = hiddenUnit (fun f => x1 (ix2 r f)) (fun h f => x2 (ix2 h f)) (fun h => x3 (ix1 h)) h := by
  rw [val_main_v7_apply, val_main_v4_apply, val_main_v6_apply, val_main_v5_apply]
  have el : ∀ k, lidx_main_v4 (ix2 r h) k = ix2 r k := fun k => funext fun a => Fin.ext (by
    match a with | ⟨0, _⟩ => rfl | ⟨1, _⟩ => rfl)
  have er : ∀ k, ridx_main_v4 (ix2 r h) k = ix2 h k := fun k => funext fun a => Fin.ext (by
    match a with | ⟨0, _⟩ => rfl | ⟨1, _⟩ => rfl)
  have eb : idx_main_v5 (idx_main_v6 (ix2 r h)) = ix1 h := funext fun a => Fin.ext (by
    match a with | ⟨0, _⟩ => rfl)
  simp only [el, er, eb]
  rfl

/-- The joined array at row `r`, column `k`. -/
theorem joined_at (r : Fin 16384) (k : Fin 2048) :
    val_main_v8 (F := Ideal) x0 x1 x2 x3 (ix2 r k)
      = joined (fun f => x0 (ix2 r f)) (fun f => x1 (ix2 r f)) (fun h f => x2 (ix2 h f)) (fun h => x3 (ix1 h)) k := by
  unfold val_main_v8
  by_cases hk : k.val < 1024
  · rw [joined_lt _ _ _ _ k hk, ← hidden_s x0 x2 x3 r ⟨k.val, hk⟩]
    exact concatenate_pair_apply_left (s₁ := S16384x1024) (s₂ := S16384x1024) (1 : Fin S16384x2048.rank)
      (val_main_v3 (F := Ideal) x0 x2 x3) (val_main_v7 (F := Ideal) x1 x2 x3)
      concatenates_S16384x1024_S16384x1024_S16384x2048_d1 (ix2 r k) rfl (ix2 r (⟨k.val, hk⟩ : Fin 1024))
      (fun a => match a with | ⟨0, _⟩ => rfl | ⟨1, _⟩ => rfl)
  · have hk' : k.val - 1024 < 1024 := by have := k.isLt; omega
    rw [joined_ge _ _ _ _ k hk, ← hidden_n x1 x2 x3 r ⟨k.val - 1024, hk'⟩]
    exact concatenate_pair_apply_right (s₁ := S16384x1024) (s₂ := S16384x1024) (1 : Fin S16384x2048.rank)
      (val_main_v3 (F := Ideal) x0 x2 x3) (val_main_v7 (F := Ideal) x1 x2 x3)
      concatenates_S16384x1024_S16384x1024_S16384x2048_d1 (ix2 r k) rfl rfl (ix2 r (⟨k.val - 1024, hk'⟩ : Fin 1024))
      (fun a => match a with | ⟨0, _⟩ => fun _ => rfl | ⟨1, _⟩ => fun hne => absurd rfl hne)
      (by show (k.val - 1024) + 1024 = k.val; omega)

/-- The activated array at row `r`, column `k`. -/
theorem act_at (r : Fin 16384) (k : Fin 2048) :
    val_main_v10 (F := Ideal) x0 x1 x2 x3 (ix2 r k)
      = clipSq (joined (fun f => x0 (ix2 r f)) (fun f => x1 (ix2 r f)) (fun h f => x2 (ix2 h f)) (fun h => x3 (ix1 h)) k) := by
  rw [val_main_v10_apply, val_main_v9_apply, val_main_call0_v4_apply, val_main_call0_v3_apply, val_main_cst_0_apply,
    val_main_call0_v2_apply, val_main_call0_v1_apply, val_main_call0_v0_apply, val_main_cst_apply, joined_at]
  rfl

/-- THE REFERENCE'S RESULT is the network of its arguments. -/
theorem ref_eq_net : val_main_v20 (F := Ideal) x0 x1 x2 x3 x4 x5 = net x0 x1 x2 x3 x4 x5 := by
  funext i
  obtain ⟨r, q, rfl⟩ : ∃ (r : Fin 16384) (q : Fin 1), i = ix2 r q := ⟨i 0, i 1, eq_ix2 i⟩
  rw [val_main_v20_apply, val_main_v19_apply, val_main_cst_2_apply, val_main_v18_apply, val_main_v17_apply,
    val_main_cst_1_apply, val_main_v16_apply, val_main_v15_apply, val_main_v14_apply, val_main_v11_apply,
    val_main_v13_apply, val_main_v12_apply]
  simp only [Ideal.hostDivf_def, Ideal.addf_def, Ideal.hostUnary_exp_def, Ideal.hostNegf_def, Ideal.negf_def,
    Ideal.ofBits_def, one_f32]
  show Ideal.logistic _ = score (fun f => x0 (ix2 r f)) (fun f => x1 (ix2 r f)) (fun h f => x2 (ix2 h f))
    (fun h => x3 (ix1 h)) (fun k => x4 (ix2 (0 : Fin 1) k)) (x5 (ix1 (0 : Fin 1)))
  unfold score
  have el : ∀ k, lidx_main_v11 (ix2 r q) k = ix2 r k := fun k => funext fun a => Fin.ext (by
    match a with | ⟨0, _⟩ => rfl | ⟨1, _⟩ => rfl)
  have er : ∀ k, ridx_main_v11 (ix2 r q) k = ix2 (0 : Fin 1) k := fun k => funext fun a => Fin.ext (by
    match a with
    | ⟨0, _⟩ => show q.val = 0; omega
    | ⟨1, _⟩ => rfl)
  have eb : idx_main_v12 (idx_main_v13 (ix2 r q)) = ix1 (0 : Fin 1) := funext fun a => Fin.ext (by
    match a with | ⟨0, _⟩ => rfl)
  simp only [el, er, eb, act_at]

end Cert.ReferenceIdeal.RefValue

end
-- ==== Proof.lean ====
/-
  A two-perspective evaluation network, computed block by block on the accelerator, equals its plain array formula
  on the extended reals.

  Both programs take two feature arrays (16384 positions × 768 features, one array per perspective), a first weight
  matrix (1024 hidden units × 768 features) with its bias, and a second weight row (2048 entries) with its bias.
  For every position each feature row is mapped to 1024 hidden units, `(∑ f, x f · W₁ h f) + b₁ h`; the two hidden
  rows are laid side by side, clamped to the interval from 0 to 1, squared, combined linearly with the second weights
  and bias, and passed through the logistic function. The kernel does this for 512 positions at each of 32 grid
  points, on weights the host has transposed for it beforehand; the reference does it on whole arrays and spells the
  logistic function as `1 / (1 + e^(-x))`.

  On the extended reals the narrowing of the matrix products' operands to 16-bit floats is the identity, a matrix
  product into a zero accumulator and a general contraction are both the plain sum of products over the contracted
  axis, and the logistic function is that quotient. So both results are, row by row, the score of Proof/Spec.lean:
  Proof/Body.lean reads the kernel's body at one element, Proof/NetValue.lean carries the 32 blocks to the whole
  array, Proof/RefValue.lean reads the reference stage by stage. No arithmetic law beyond the definitions is used,
  so the finiteness of the inputs is never needed. The idealized kernel is the kernel's own text (nothing was
  rewritten), and the three frames are the generated ones.
-/
import proofs.«103659_j82386062672602_1_alg».proof.Defs
import proofs.«103659_j82386062672602_1_alg».proof.Proof.Gen.Kernel
import proofs.«103659_j82386062672602_1_alg».proof.Proof.Gen.Kernel.Skeleton
import proofs.«103659_j82386062672602_1_alg».proof.Proof.Gen.Kernel.Launch
import proofs.«103659_j82386062672602_1_alg».proof.Proof.Gen.Kernel.Points
import proofs.«103659_j82386062672602_1_alg».proof.Proof.Gen.Kernel.Frame
import proofs.«103659_j82386062672602_1_alg».proof.Proof.Gen.KernelIdeal
import proofs.«103659_j82386062672602_1_alg».proof.Proof.Gen.KernelIdeal.Skeleton
import proofs.«103659_j82386062672602_1_alg».proof.Proof.Gen.KernelIdeal.Launch
import proofs.«103659_j82386062672602_1_alg».proof.Proof.Gen.KernelIdeal.Points
import proofs.«103659_j82386062672602_1_alg».proof.Proof.Gen.KernelIdeal.Frame
import proofs.«103659_j82386062672602_1_alg».proof.Proof.Gen.ReferenceIdeal
import proofs.«103659_j82386062672602_1_alg».proof.Proof.Gen.Pre_finite_inputs
import proofs.«103659_j82386062672602_1_alg».proof.Proof.Gen.KernelIdeal.Value
import proofs.«103659_j82386062672602_1_alg».proof.Proof.Gen.ReferenceIdeal.Run
import proofs.«103659_j82386062672602_1_alg».proof.Proof.Gen.ReferenceIdeal.Read
import proofs.«103659_j82386062672602_1_alg».proof.Proof.NetValue
import proofs.«103659_j82386062672602_1_alg».proof.Proof.RefValue
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel's text was rewritten for the extended reals. -/
theorem preserves : Cert.preserves_Kernel_KernelIdeal := trivial

/-- From arguments that agree, the kernel's result array and the reference's both end at the network of the
    arguments. -/
theorem algebraic : Cert.algebraic_KernelIdeal_ReferenceIdeal := by
  intro m ρ m' ρ' _ hagree
  refine ⟨fun c => Cert.KernelIdeal.NetValue.netOf m c, Cert.KernelIdeal.NetValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v20_eq _ _ _ _ _ _).trans (Cert.ReferenceIdeal.RefValue.ref_eq_net _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
